-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v18)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v18) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v17) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S16384x3 : Shape := ⟨2, ![16384, 3]⟩
abbrev S16384x16384 : Shape := ⟨2, ![16384, 16384]⟩
abbrev S8192 : Shape := ⟨1, ![8192]⟩
abbrev S_ : Shape := ⟨0, ![]⟩

class Facts : Prop where
  bcast_S_S16384x3 : S_.BroadcastsInDim S16384x3 (![] : Fin 0 → Fin S16384x3.rank)
  reducesTo_S16384x3_S_d0_1 : S16384x3.ReducesTo [0, 1] S_
  h_S_ : 0 < S_.numel
  bcast_S_S16384x16384 : S_.BroadcastsInDim S16384x16384 (![] : Fin 0 → Fin S16384x16384.rank)
  reducesTo_S16384x16384_S_d0_1 : S16384x16384.ReducesTo [0, 1] S_

variable [Facts]

def fn {F : FTy → Type} [FloatOps F] (main_arg0 : FVec F S16384x3 .f32) (main_arg1 : FVec F S16384x16384 .f32) (main_arg2 : FVec F S16384x3 .f32) (main_arg3 : IVec S8192 32) : IVec S_ 1 :=
  let main_v0 : FVec F S16384x3 .f32 := Host.absf main_arg0
  let main_cst : FVec F S_ .f32 := constant S_ .f32 0x7F800000#32
  let main_v1 : FVec F S16384x3 .f32 := broadcastInDim S16384x3 ![] bcast_S_S16384x3 main_cst
  let main_v2 : IVec S16384x3 1 := cmpf .olt main_v0 main_v1
  let main_c : IVec S_ 1 := constantI S_ 1 1#1
  let main_v3 : IVec S_ 1 := (fun x v => Host.reduce IntOp.andi x v reducesTo_S16384x3_S_d0_1 h_S_) main_v2 main_c
  let main_v4 : FVec F S16384x16384 .f32 := Host.absf main_arg1
  let main_cst_0 : FVec F S_ .f32 := constant S_ .f32 0x7F800000#32
  let main_v5 : FVec F S16384x16384 .f32 := broadcastInDim S16384x16384 ![] bcast_S_S16384x16384 main_cst_0
  let main_v6 : IVec S16384x16384 1 := cmpf .olt main_v4 main_v5
  let main_c_1 : IVec S_ 1 := constantI S_ 1 1#1
  let main_v7 : IVec S_ 1 := (fun x v => Host.reduce IntOp.andi x v reducesTo_S16384x16384_S_d0_1 h_S_) main_v6 main_c_1
  let main_v8 : IVec S_ 1 := andi main_v3 main_v7
  let main_v9 : FVec F S16384x3 .f32 := Host.absf main_arg2
  let main_cst_2 : FVec F S_ .f32 := constant S_ .f32 0x7F800000#32
  let main_v10 : FVec F S16384x3 .f32 := broadcastInDim S16384x3 ![] bcast_S_S16384x3 main_cst_2
  let main_v11 : IVec S16384x3 1 := cmpf .olt main_v9 main_v10
  let main_c_3 : IVec S_ 1 := constantI S_ 1 1#1
  let main_v12 : IVec S_ 1 := (fun x v => Host.reduce IntOp.andi x v reducesTo_S16384x3_S_d0_1 h_S_) main_v11 main_c_3
  let main_v13 : IVec S_ 1 := andi main_v8 main_v12
  main_v13
-- ==== Kernel.lean ====
abbrev S16384x3 : Shape := ⟨2, ![16384, 3]⟩
abbrev S16384x16384 : Shape := ⟨2, ![16384, 16384]⟩
abbrev S8192 : Shape := ⟨1, ![8192]⟩
abbrev S3x16384 : Shape := ⟨2, ![3, 16384]⟩
abbrev S128x16384 : Shape := ⟨2, ![128, 16384]⟩
abbrev S128x3 : Shape := ⟨2, ![128, 3]⟩
abbrev S1x16384 : Shape := ⟨2, ![1, 16384]⟩
abbrev S128 : Shape := ⟨1, ![128]⟩
abbrev S128x1 : Shape := ⟨2, ![128, 1]⟩
abbrev S_ : Shape := ⟨0, ![]⟩
abbrev S8192x1 : Shape := ⟨2, ![8192, 1]⟩
abbrev S8192x3 : Shape := ⟨2, ![8192, 3]⟩

abbrev nBuf : Space → Nat
  | .hbm => 28
  | .vmem => 5
  | .smem => 0
  | _ => 0

abbrev bufTy : (tb : Table) → Fin (tcTables nBuf tb) → BufTy
  | .hbm, ⟨0, _⟩ => ⟨S16384x3, .f32⟩
  | .hbm, ⟨1, _⟩ => ⟨S16384x16384, .f32⟩
  | .hbm, ⟨2, _⟩ => ⟨S16384x3, .f32⟩
  | .hbm, ⟨3, _⟩ => ⟨S8192, .i32⟩
  | .hbm, ⟨4, _⟩ => ⟨S3x16384, .f32⟩
  | .hbm, ⟨5, _⟩ => ⟨S16384x3, .f32⟩
  | .hbm, ⟨6, _⟩ => ⟨S_, .i32⟩
  | .hbm, ⟨7, _⟩ => ⟨S8192, .i32⟩
  | .hbm, ⟨8, _⟩ => ⟨S8192, .i1⟩
  | .hbm, ⟨9, _⟩ => ⟨S_, .i32⟩
  | .hbm, ⟨10, _⟩ => ⟨S8192, .i32⟩
  | .hbm, ⟨11, _⟩ => ⟨S8192, .i32⟩
  | .hbm, ⟨12, _⟩ => ⟨S8192, .i32⟩
  | .hbm, ⟨13, _⟩ => ⟨S8192x1, .i32⟩
  | .hbm, ⟨14, _⟩ => ⟨S8192x3, .f32⟩
  | .hbm, ⟨15, _⟩ => ⟨S_, .i32⟩
  | .hbm, ⟨16, _⟩ => ⟨S8192, .i32⟩
  | .hbm, ⟨17, _⟩ => ⟨S8192, .i1⟩
  | .hbm, ⟨18, _⟩ => ⟨S_, .i32⟩
  | .hbm, ⟨19, _⟩ => ⟨S8192, .i32⟩
  | .hbm, ⟨20, _⟩ => ⟨S8192, .i32⟩
  | .hbm, ⟨21, _⟩ => ⟨S8192, .i32⟩
  | .hbm, ⟨22, _⟩ => ⟨S8192x1, .i32⟩
  | .hbm, ⟨23, _⟩ => ⟨S8192x3, .f32⟩
  | .hbm, ⟨24, _⟩ => ⟨S8192x3, .f32⟩
  | .hbm, ⟨25, _⟩ => ⟨S8192x3, .f32⟩
  | .hbm, ⟨26, _⟩ => ⟨S_, .f32⟩
  | .hbm, ⟨27, _⟩ => ⟨S_, .f32⟩
  | .local _ .vmem, ⟨0, _⟩ => ⟨S128x16384, .f32⟩
  | .local _ .vmem, ⟨1, _⟩ => ⟨S128x16384, .f32⟩
  | .local _ .vmem, ⟨2, _⟩ => ⟨S3x16384, .f32⟩
  | .local _ .vmem, ⟨3, _⟩ => ⟨S128x3, .f32⟩
  | .local _ .vmem, ⟨4, _⟩ => ⟨S128x3, .f32⟩
  | _, _ => ⟨S16384x3, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_c : Ref sig .tc := ⟨.hbm, 6, rfl⟩
abbrev main_v2 : Ref sig .tc := ⟨.hbm, 7, rfl⟩
abbrev main_v3 : Ref sig .tc := ⟨.hbm, 8, rfl⟩
abbrev main_c_0 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_c_1 : Ref sig .tc := ⟨.hbm, 15, rfl⟩
abbrev main_v9 : Ref sig .tc := ⟨.hbm, 16, rfl⟩
abbrev main_v10 : Ref sig .tc := ⟨.hbm, 17, rfl⟩
abbrev main_c_2 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_cst : Ref sig .tc := ⟨.hbm, 26, rfl⟩
abbrev main_v18 : Ref sig .tc := ⟨.hbm, 27, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨1, ![128], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S128x16384 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S3x16384 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S128x3 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

class Facts₀ : Prop where
  transposes_S16384x3_S3x16384_1_0 : S16384x3.Transposes [1, 0] S3x16384
  inb_S128x16384_S128x16384_0_0 : ∀ a, (![0, 0] : Fin 2 → Nat) a + S128x16384.size a ≤ S128x16384.size a
  h_S128x16384 : 0 < S128x16384.numel
  inb_S3x16384_S3x16384_0_0 : ∀ a, (![0, 0] : Fin 2 → Nat) a + S3x16384.size a ≤ S3x16384.size a
  h_S3x16384 : 0 < S3x16384.numel
  shapeCasts_S3x16384_S3x16384 : S3x16384.ShapeCasts S3x16384
  slices_S3x16384_o0_0_S1x16384 : S3x16384.Slices ![0, 0] S1x16384
  broadcasts_S1x16384_S128x16384 : S1x16384.Broadcasts S128x16384
  reduces_S128x16384_S128 : S128x16384.Reduces [1] S128
  shapeCasts_S128_S128x1 : S128.ShapeCasts S128x1
  slices_S3x16384_o1_0_S1x16384 : S3x16384.Slices ![1, 0] S1x16384
  slices_S3x16384_o2_0_S1x16384 : S3x16384.Slices ![2, 0] S1x16384
  concatenates_S128x1_S128x1_S128x1_S128x3_d1 : Shape.Concatenates [S128x1, S128x1, S128x1] S128x3 1
  inb_S128x3_S128x3_0_0 : ∀ a, (![0, 0] : Fin 2 → Nat) a + S128x3.size a ≤ S128x3.size a
  h_S128x3 : 0 < S128x3.numel
  bcast_S_S8192 : S_.BroadcastsInDim S8192 (![] : Fin 0 → Fin S8192.rank)
  bcast_S8192_S8192x1_0 : S8192.BroadcastsInDim S8192x1 (![0] : Fin 1 → Fin S8192x1.rank)
  reducesTo_S8192x3_S_d0_1 : S8192x3.ReducesTo [0, 1] S_
  h_S_ : 0 < S_.numel
  gather_S16384x3_S8192x1_S8192x3_1_0_n_n_0_1_13_wf : GatherDims.WF S16384x3 S8192x1 S8192x3 [1] [0] [] [0] [] 1 ![1, 3]
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S128x16384.size a ≤ S16384x16384.size a
  hwx0_0 : ∀ i : grid0.Coords, EltTy.bits .f32 = 32 ∨ (Rect.block (s := S16384x16384) S128x16384.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S3x16384.size a ≤ S3x16384.size a
  hwx0_1 : ∀ i : grid0.Coords, EltTy.bits .f32 = 32 ∨ (Rect.block (s := S3x16384) S3x16384.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S128x3.size a ≤ S16384x3.size a
  hwx0_2 : ∀ i : grid0.Coords, EltTy.bits .f32 = 32 ∨ (Rect.block (s := S16384x3) S128x3.size (cc0_transform_2 i) (hinb0_2 i)).WholeWords (EltTy.packing .f32)

variable [Facts₀]

def gather_S16384x3_S8192x1_S8192x3_1_0_n_n_0_1_13 : GatherDims S16384x3 S8192x1 S8192x3 where
  offsetDims := [1]
  collapsedSliceDims := [0]
  operandBatchingDims := []
  startIndicesBatchingDims := []
  startIndexMap := [0]
  indexVectorDim := 1
  sliceSizes := ![1, 3]
  wf := gather_S16384x3_S8192x1_S8192x3_1_0_n_n_0_1_13_wf

abbrev win0_0 : Pipeline.Window sig grid0 :=
  Pipeline.Window.ofSpec (Memref.whole main_arg1) S128x16384.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v0) S3x16384.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v1) S128x3.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

class Facts : Prop extends Facts₀ where

variable [Facts]
-- ==== ReferenceIdeal.lean ====
abbrev S16384x3 : Shape := ⟨2, ![16384, 3]⟩
abbrev S16384x16384 : Shape := ⟨2, ![16384, 16384]⟩
abbrev S8192 : Shape := ⟨1, ![8192]⟩
abbrev S_ : Shape := ⟨0, ![]⟩
abbrev S8192x1 : Shape := ⟨2, ![8192, 1]⟩
abbrev S8192x3 : Shape := ⟨2, ![8192, 3]⟩

abbrev nBuf : Space → Nat
  | .hbm => 27
  | .vmem => 0
  | .smem => 0
  | _ => 0

abbrev bufTy : (tb : Table) → Fin (tcTables nBuf tb) → BufTy
  | .hbm, ⟨0, _⟩ => ⟨S16384x3, .f32⟩
  | .hbm, ⟨1, _⟩ => ⟨S16384x16384, .f32⟩
  | .hbm, ⟨2, _⟩ => ⟨S16384x3, .f32⟩
  | .hbm, ⟨3, _⟩ => ⟨S8192, .i32⟩
  | .hbm, ⟨4, _⟩ => ⟨S16384x3, .f32⟩
  | .hbm, ⟨5, _⟩ => ⟨S_, .i32⟩
  | .hbm, ⟨6, _⟩ => ⟨S8192, .i32⟩
  | .hbm, ⟨7, _⟩ => ⟨S8192, .i1⟩
  | .hbm, ⟨8, _⟩ => ⟨S_, .i32⟩
  | .hbm, ⟨9, _⟩ => ⟨S8192, .i32⟩
  | .hbm, ⟨10, _⟩ => ⟨S8192, .i32⟩
  | .hbm, ⟨11, _⟩ => ⟨S8192, .i32⟩
  | .hbm, ⟨12, _⟩ => ⟨S8192x1, .i32⟩
  | .hbm, ⟨13, _⟩ => ⟨S8192x3, .f32⟩
  | .hbm, ⟨14, _⟩ => ⟨S_, .i32⟩
  | .hbm, ⟨15, _⟩ => ⟨S8192, .i32⟩
  | .hbm, ⟨16, _⟩ => ⟨S8192, .i1⟩
  | .hbm, ⟨17, _⟩ => ⟨S_, .i32⟩
  | .hbm, ⟨18, _⟩ => ⟨S8192, .i32⟩
  | .hbm, ⟨19, _⟩ => ⟨S8192, .i32⟩
  | .hbm, ⟨20, _⟩ => ⟨S8192, .i32⟩
  | .hbm, ⟨21, _⟩ => ⟨S8192x1, .i32⟩
  | .hbm, ⟨22, _⟩ => ⟨S8192x3, .f32⟩
  | .hbm, ⟨23, _⟩ => ⟨S8192x3, .f32⟩
  | .hbm, ⟨24, _⟩ => ⟨S8192x3, .f32⟩
  | .hbm, ⟨25, _⟩ => ⟨S_, .f32⟩
  | .hbm, ⟨26, _⟩ => ⟨S_, .f32⟩
  | _, _ => ⟨S16384x3, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_c : Ref sig .tc := ⟨.hbm, 5, rfl⟩
abbrev main_v1 : Ref sig .tc := ⟨.hbm, 6, rfl⟩
abbrev main_v2 : Ref sig .tc := ⟨.hbm, 7, rfl⟩
abbrev main_c_0 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_c_1 : Ref sig .tc := ⟨.hbm, 14, rfl⟩
abbrev main_v8 : Ref sig .tc := ⟨.hbm, 15, rfl⟩
abbrev main_v9 : Ref sig .tc := ⟨.hbm, 16, rfl⟩
abbrev main_c_2 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_cst : Ref sig .tc := ⟨.hbm, 25, rfl⟩
abbrev main_v17 : Ref sig .tc := ⟨.hbm, 26, rfl⟩

abbrev nD : Nat := 1
abbrev τ : Topo := Topo.v7x

variable {F : FTy → Type} [FloatOps F]

class Facts₀ : Prop where
  bcast_S_S8192 : S_.BroadcastsInDim S8192 (![] : Fin 0 → Fin S8192.rank)
  bcast_S8192_S8192x1_0 : S8192.BroadcastsInDim S8192x1 (![0] : Fin 1 → Fin S8192x1.rank)
  reducesTo_S8192x3_S_d0_1 : S8192x3.ReducesTo [0, 1] S_
  h_S_ : 0 < S_.numel
  dot_S16384x16384_S16384x3_S16384x3_1_0_0_1_n_n_wf : DotDims.WF S16384x16384 S16384x3 S16384x3 [1] [0] [0] [1] [] []
  gather_S16384x3_S8192x1_S8192x3_1_0_n_n_0_1_13_wf : GatherDims.WF S16384x3 S8192x1 S8192x3 [1] [0] [] [0] [] 1 ![1, 3]

variable [Facts₀]

def dot_S16384x16384_S16384x3_S16384x3_1_0_0_1_n_n : DotDims S16384x16384 S16384x3 S16384x3 where
  lhsContracting := [1]
  rhsContracting := [0]
  lhsNonContracting := [0]
  rhsNonContracting := [1]
  lhsBatch := []
  rhsBatch := []
  wf := dot_S16384x16384_S16384x3_S16384x3_1_0_0_1_n_n_wf
def gather_S16384x3_S8192x1_S8192x3_1_0_n_n_0_1_13 : GatherDims S16384x3 S8192x1 S8192x3 where
  offsetDims := [1]
  collapsedSliceDims := [0]
  operandBatchingDims := []
  startIndicesBatchingDims := []
  startIndexMap := [0]
  indexVectorDim := 1
  sliceSizes := ![1, 3]
  wf := gather_S16384x3_S8192x1_S8192x3_1_0_n_n_0_1_13_wf

class Facts : Prop extends Facts₀ where

variable [Facts]
-- ==== Proof.RowDots.lean ====
/-
  What the kernel body computes from one block of the operator and the transposed positions.

  The body holds a block X of 128 rows of L (shape [128, 16384]) and the transposed positions Y = Vᵀ (shape
  [3, 16384]). For each of the three coordinates c it takes row c of Y, lays it along every row of X, multiplies entry
  by entry and sums each row over its 16384 lanes from a zero accumulator; the three resulting columns of 128 sums are
  put side by side. So entry (p, c) of the stored block is ∑ k, X(p, k) · Y(c, k): the sum over the lanes of the
  product, the zero accumulator dropped, the column c picked by the concatenation.
-/
import proofs.«115199_j62929860821305_1_alg».proof.Proof.Gen.KernelIdeal.Skeleton
import Idealize.ShloMosaic.Lib.Pipeline.Value
import Idealize.ShloMosaic.Lib.ValueIdx
import Idealize.ShloMosaic.PureOps.Ideal.Laws

noncomputable section

open scoped BigOperators

namespace Cert.LaplacianLoss

open Idealize.ShloMosaic Idealize.ShloMosaic.ValueIdx

/-- One column of the block: row `c` of Y (the slice at offsets `off = (c, 0)`) broadcast down the 128 rows, times X,
    summed over the lanes and cast to a column, read at row `p`: ∑ k, X(p, k) · Y(c, k). -/
theorem rowDot (x0 : FVec Ideal ⟨2, ![128, 16384]⟩ .f32) (x1 : FVec Ideal ⟨2, ![3, 16384]⟩ .f32)
    (off : Fin 2 → Nat) (c : Fin 3) (h0 : off 0 = c.val) (h1 : off 1 = 0)
    (hcast : (⟨2, ![3, 16384]⟩ : Shape).ShapeCasts ⟨2, ![3, 16384]⟩)
    (hs : (⟨2, ![3, 16384]⟩ : Shape).Slices off ⟨2, ![1, 16384]⟩)
    (hb : (⟨2, ![1, 16384]⟩ : Shape).Broadcasts ⟨2, ![128, 16384]⟩)
    (hr : (⟨2, ![128, 16384]⟩ : Shape).Reduces [1] ⟨1, ![128]⟩)
    (hφ : FKind.Formats .f32) (hacc : (0x00000000#32 : BitVec FTy.f32.bits) = FKind.add.neutral .f32 hφ)
    (hc : (⟨1, ![128]⟩ : Shape).ShapeCasts ⟨2, ![128, 1]⟩) (p : Fin 128) :
    shapeCast ⟨2, ![128, 1]⟩ (multiReduction (F := Ideal) .add [1] ⟨1, ![128]⟩
        (mulf x0 (broadcastTo ⟨2, ![128, 16384]⟩
          (extractStridedSlice ⟨2, ![1, 16384]⟩ off (shapeCast ⟨2, ![3, 16384]⟩ x1 hcast) hs) hb))
        0x00000000#32 hr hφ hacc) hc (ix2 p (0 : Fin 1))
      = ∑ k : Fin 16384, x0 (ix2 p k) * x1 (ix2 c k) := by
  -- the column cast reads the sum vector at row p
  refine (shapeCast_apply _ hc (ix2 p (0 : Fin 1)) (ix1 p) ?_).trans ?_
  · rw [Shape.rowMajor_val_one, Shape.rowMajor_val_two]
    show p.val = p.val * 1 + 0
    omega
  -- the lane sum is the sum over the lane coordinate
  refine (Ideal.multiReduction_add_single _ 0x00000000#32 hr hφ hacc (ix1 p)).trans ?_
  have hl : ∀ k : Fin 16384, hr.lift (ix1 p) k = ix2 p k := fun k => by
    funext a
    match a with
    | ⟨0, _⟩ => rfl
    | ⟨1, _⟩ => rfl
  show ∑ k : Fin 16384, _ = _
  refine Finset.sum_congr rfl fun k _ => ?_
  show x0 (hr.lift (ix1 p) k) * broadcastTo ⟨2, ![128, 16384]⟩ _ hb (hr.lift (ix1 p) k) = _
  rw [hl k]
  congr 1
  -- the broadcast reads the one row at lane k, the slice reads row c of Y there
  refine (broadcastTo_apply _ hb (ix2 p k) (ix2 (0 : Fin 1) k) ?_).trans ?_
  · intro a
    match a with
    | ⟨0, _⟩ => rfl
    | ⟨1, _⟩ => rfl
  refine (extractStridedSlice_apply off _ hs (ix2 (0 : Fin 1) k) (ix2 c k) ?_).trans ?_
  · intro a
    match a with
    | ⟨0, _⟩ => show c.val = off 0 + 0; omega
    | ⟨1, _⟩ => show k.val = off 1 + k.val; omega
  rw [shapeCast_self]

/-- Three columns of 128 entries put side by side: entry (p, c) of the result is entry p of column c. -/
theorem threeColumns_apply {α : Type} (a0 a1 a2 : (⟨2, ![128, 1]⟩ : Shape).Idx → α)
    (h : Shape.Concatenates [(⟨2, ![128, 1]⟩ : Shape), ⟨2, ![128, 1]⟩, ⟨2, ![128, 1]⟩] ⟨2, ![128, 3]⟩ 1)
    (p : Fin 128) :
    concatenate (⟨2, ![128, 3]⟩ : Shape) 1 [⟨⟨2, ![128, 1]⟩, a0⟩, ⟨⟨2, ![128, 1]⟩, a1⟩, ⟨⟨2, ![128, 1]⟩, a2⟩] h (ix2 p (0 : Fin 3)) = a0 (ix2 p (0 : Fin 1))
    ∧ concatenate (⟨2, ![128, 3]⟩ : Shape) 1 [⟨⟨2, ![128, 1]⟩, a0⟩, ⟨⟨2, ![128, 1]⟩, a1⟩, ⟨⟨2, ![128, 1]⟩, a2⟩] h (ix2 p (1 : Fin 3)) = a1 (ix2 p (0 : Fin 1))
    ∧ concatenate (⟨2, ![128, 3]⟩ : Shape) 1 [⟨⟨2, ![128, 1]⟩, a0⟩, ⟨⟨2, ![128, 1]⟩, a1⟩, ⟨⟨2, ![128, 1]⟩, a2⟩] h (ix2 p (2 : Fin 3)) = a2 (ix2 p (0 : Fin 1)) := by
  have hi : ∀ (q : Fin 3) (b : Fin (⟨2, ![128, 1]⟩ : Shape).rank), b.cast (rfl : (2 : Nat) = 2) ≠ (1 : Fin 2) →
      ((ix2 p (0 : Fin 1)) b).val = ((ix2 p q) (b.cast (rfl : (2 : Nat) = 2))).val := fun q b hb => by
    match b with
    | ⟨0, _⟩ => rfl
    | ⟨1, _⟩ => exact absurd rfl hb
  refine ⟨?_, ?_, ?_⟩
  · exact concatenate_apply_piece (t := ⟨2, ![128, 3]⟩) (1 : Fin 2) [⟨⟨2, ![128, 1]⟩, a0⟩, ⟨⟨2, ![128, 1]⟩, a1⟩, ⟨⟨2, ![128, 1]⟩, a2⟩] h (ix2 p (0 : Fin 3)) 0 (by show 0 < 3; omega)
      ⟨2, ![128, 1]⟩ a0 rfl rfl 0 rfl (ix2 p (0 : Fin 1)) (hi 0) rfl
  · exact concatenate_apply_piece (t := ⟨2, ![128, 3]⟩) (1 : Fin 2) [⟨⟨2, ![128, 1]⟩, a0⟩, ⟨⟨2, ![128, 1]⟩, a1⟩, ⟨⟨2, ![128, 1]⟩, a2⟩] h (ix2 p (1 : Fin 3)) 1 (by show 1 < 3; omega)
      ⟨2, ![128, 1]⟩ a1 rfl rfl 1 rfl (ix2 p (0 : Fin 1)) (hi 1) rfl
  · exact concatenate_apply_piece (t := ⟨2, ![128, 3]⟩) (1 : Fin 2) [⟨⟨2, ![128, 1]⟩, a0⟩, ⟨⟨2, ![128, 1]⟩, a1⟩, ⟨⟨2, ![128, 1]⟩, a2⟩] h (ix2 p (2 : Fin 3)) 2 (by show 2 < 3; omega)
      ⟨2, ![128, 1]⟩ a2 rfl rfl 2 rfl (ix2 p (0 : Fin 1)) (hi 2) rfl

variable [hK : Cert.KernelIdeal.Facts]

open Cert.KernelIdeal Cert.KernelIdeal.Gen in
/-- The stored block at entry (p, c): ∑ k, X(p, k) · Y(c, k). -/
theorem block_apply (x0 : FVec Ideal ⟨2, ![128, 16384]⟩ .f32) (x1 : FVec Ideal ⟨2, ![3, 16384]⟩ .f32)
    (p : Fin 128) (c : Fin 3) :
    (k0_pay1 (F := Ideal) x0 x1) (ix2 p c) = ∑ k : Fin 16384, x0 (ix2 p k) * x1 (ix2 c k) := by
  unfold k0_pay1
  dsimp only
  match c with
  | ⟨0, _⟩ =>
    refine (threeColumns_apply _ _ _ _ p).1.trans ?_
    exact rowDot x0 x1 ![0, 0] 0 rfl rfl _ _ _ _ _ _ _ p
  | ⟨1, _⟩ =>
    refine (threeColumns_apply _ _ _ _ p).2.1.trans ?_
    exact rowDot x0 x1 ![1, 0] 1 rfl rfl _ _ _ _ _ _ _ p
  | ⟨2, _⟩ =>
    refine (threeColumns_apply _ _ _ _ p).2.2.trans ?_
    exact rowDot x0 x1 ![2, 0] 2 rfl rfl _ _ _ _ _ _ _ p

end Cert.LaplacianLoss

end
-- ==== Proof.MatVecSpec.lean ====
/-
  The specification of the mesh Laplacian applied to the vertex positions.

  For a dense operator L of shape [16384, 16384] and vertex positions V of shape [16384, 3], the product L · V is the
  array of shape [16384, 3] whose entry (i, c) is the sum over k < 16384 of L(i, k) · V(k, c), taken on the extended
  reals. Addition and multiplication of extended reals are commutative and associative, so the sum does not depend on
  the order of its terms, and no finiteness of the entries is needed to state or to compare it.
-/
import Idealize.ShloMosaic.PureOps.Ideal
import Idealize.ShloMosaic.Lib.ValueIdx

noncomputable section

open scoped BigOperators

namespace Cert.LaplacianLoss

open Idealize.ShloMosaic Idealize.ShloMosaic.ValueIdx

/-- The product L · V, entry by entry: (L · V)(i, c) = ∑ k, L(i, k) · V(k, c). -/
def lapV (L : (⟨2, ![16384, 16384]⟩ : Shape).Idx → EReal) (V : (⟨2, ![16384, 3]⟩ : Shape).Idx → EReal) :
    (⟨2, ![16384, 3]⟩ : Shape).Idx → EReal :=
  fun i => ∑ k : Fin 16384, L (ix2 (i 0) k) * V (ix2 k (i 1))

/-- The product at the entry with row p and column c. -/
theorem lapV_apply (L : (⟨2, ![16384, 16384]⟩ : Shape).Idx → EReal) (V : (⟨2, ![16384, 3]⟩ : Shape).Idx → EReal)
    (p : Fin 16384) (c : Fin 3) : lapV L V (ix2 p c) = ∑ k : Fin 16384, L (ix2 p k) * V (ix2 k c) := rfl

end Cert.LaplacianLoss

end
-- ==== Proof.LapArray.lean ====
/-
  The array the kernel's region leaves: L · V.

  The region walks 128 grid points. At point t the body sees rows 128·t … 128·t + 127 of L (all 16384 columns), the
  whole transposed positions Vᵀ (the host line before the region wrote them: Vᵀ(c, k) = V(k, c)), and writes rows
  128·t … 128·t + 127 of the [16384, 3] result. Entry (p, c) of what it writes is ∑ k, L(128·t + p, k) · Vᵀ(c, k)
  = ∑ k, L(128·t + p, k) · V(k, c): the block of L · V under the point's rectangle. The 128 row blocks tile the
  result, so after the run the whole array is L · V.
-/
import proofs.«115199_j62929860821305_1_alg».proof.Proof.Gen.KernelIdeal.Frame
import proofs.«115199_j62929860821305_1_alg».proof.Proof.RowDots
import proofs.«115199_j62929860821305_1_alg».proof.Proof.MatVecSpec
import Idealize.ShloMosaic.Lib.Pipeline.Value
import Idealize.ShloMosaic.Lib.StableHlo.Run

set_option maxRecDepth 16384

noncomputable section

open scoped BigOperators

namespace Cert.LaplacianLoss

open Idealize.ShloMosaic Idealize.ShloMosaic.TcCoe Idealize.ShloMosaic.ValueIdx Idealize.SL.Sem
open Cert.KernelIdeal Cert.KernelIdeal.Gen
open Idealize.ShloMosaic.Pipeline (Dat)

variable (m : (ℓ : Loc nD τ sig) → Buf (Elt Ideal) ℓ)

-- the product is read only through `lapV_apply`: its 16384-term sums are never unfolded
attribute [local irreducible] lapV

theorem zeroOffsets : (![0, 0] : Fin 2 → Nat) = fun _ => 0 := funext fun a => by fin_cases a <;> rfl

/-- The host line before the region: the second operand of the region is the transposed positions. -/
theorem transposed_eq (c : Dev nD) :
    (V m c main_v0 : S3x16384.Idx → EReal)
      = transpose S3x16384 [1, 0] (m ((c : Thread nD τ).loc main_arg0)) Facts₀.transposes_S16384x3_S3x16384_1_0 := by
  show StableHlo.after hostOps0 (fun b => m (c, b)) (Proc.devRef .tc main_v0) = _
  after_results

/-- Vᵀ(c, k) = V(k, c). -/
theorem transposed_apply (c : Dev nD) (q : Fin 3) (k : Fin 16384) :
    (V m c main_v0 : S3x16384.Idx → EReal) (ix2 q k) = m ((c : Thread nD τ).loc main_arg0) (ix2 k q) :=
  (congrFun (transposed_eq m c) (ix2 q k)).trans
    (transpose_apply [1, 0] _ Facts₀.transposes_S16384x3_S3x16384_1_0 (ix2 q k) (ix2 k q) fun b => by
      match b with
      | ⟨0, _⟩ => rfl
      | ⟨1, _⟩ => rfl)

/-- The printed index maps over the grid: at point t the operator's and the result's blocks are row block t, column
    block 0; the transposed positions' block is the whole array. -/
theorem idx_facts : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0 :=
  (by decide +kernel : ∀ t : Fin grid0.N, _)

/-- Every row block of the result is some point's. -/
theorem idx_onto : ∀ q0 : Fin 128, ∃ t : Fin cfg0.N, win0_2.index t = ![q0.val, 0] :=
  (by decide +kernel : ∀ q0 : Fin 128, ∃ t : Fin grid0.N, win0_2.index t = ![q0.val, 0])

/-- What point t writes back is block t of L · V. -/
theorem flushed_eq (c : Dev nD) (t : Fin cfg0.N) :
    (dats m 0 c).flushed 2 t = ((cfg0.win 2).blk t).view.read (Elt Ideal)
      (lapV (m ((c : Thread nD τ).loc main_arg1)) (m ((c : Thread nD τ).loc main_arg0))) := by
  show (cfg0.win 2).cut (grid0.coords t) ((dats m 0 c).after 2 t) = _
  rw [after0_2]
  unfold out0_2
  rw [View.canon_unit_zero zeroOffsets]
  simp only [View.ld_unit_zero (S := S128x16384) zeroOffsets, View.ld_unit_zero (S := S3x16384) zeroOffsets]
  obtain ⟨e00, e01, e10, e11, e20, e21⟩ := idx_facts t
  have ht : t.val < 128 := lt_of_lt_of_eq t.isLt N_0
  funext j
  rw [View.read_apply]
  show k0_pay1 (F := Ideal) (iblk m c 0 t) (iblk m c 1 t) j = _
  obtain ⟨p, q, rfl⟩ : ∃ (p : Fin 128) (q : Fin 3), j = ix2 p q := ⟨j 0, j 1, eq_ix2 j⟩
  refine (block_apply (iblk m c 0 t) (iblk m c 1 t) p q).trans ?_
  -- the result's entry under the block: row 128·t + p, column q
  have hemb : ((cfg0.win 2).blk t).view.emb (ix2 p q) = ix2 (⟨t.val * 128 + p.val, by omega⟩ : Fin 16384) q := by
    funext a; apply Fin.ext
    match a with
    | ⟨0, _⟩ => show win0_2.index t (0 : Fin 2) * 128 + 1 * p.val = t.val * 128 + p.val; omega
    | ⟨1, _⟩ => show win0_2.index t (1 : Fin 2) * 3 + 1 * q.val = q.val; omega
  rw [hemb]
  refine Eq.trans ?_ (lapV_apply (m ((c : Thread nD τ).loc main_arg1)) (m ((c : Thread nD τ).loc main_arg0))
    (⟨t.val * 128 + p.val, by omega⟩ : Fin 16384) q).symm
  refine Fintype.sum_congr _ _ fun k => ?_
  -- the operator's block reads L at row 128·t + p
  have h0 : iblk m c 0 t (ix2 p k)
      = m ((c : Thread nD τ).loc main_arg1) (ix2 (⟨t.val * 128 + p.val, by omega⟩ : Fin 16384) k) := by
    show V m c main_arg1 (((cfg0.win 0).blk t).view.emb (ix2 p k)) = _
    rw [V_main_arg1]
    congr 1
    funext a; apply Fin.ext
    match a with
    | ⟨0, _⟩ => show win0_0.index t (0 : Fin 2) * 128 + 1 * p.val = t.val * 128 + p.val; omega
    | ⟨1, _⟩ => show win0_0.index t (1 : Fin 2) * 16384 + 1 * k.val = k.val; omega
  -- the positions' block is the whole transposed array
  have h1 : iblk m c 1 t (ix2 q k) = m ((c : Thread nD τ).loc main_arg0) (ix2 k q) := by
    show V m c main_v0 (((cfg0.win 1).blk t).view.emb (ix2 q k)) = _
    have he : ((cfg0.win 1).blk t).view.emb (ix2 q k) = ix2 q k := by
      funext a; apply Fin.ext
      match a with
      | ⟨0, _⟩ => show win0_1.index t (0 : Fin 2) * 3 + 1 * q.val = q.val; omega
      | ⟨1, _⟩ => show win0_1.index t (1 : Fin 2) * 16384 + 1 * k.val = k.val; omega
    rw [he]
    exact transposed_apply m c q k
  rw [h0, h1]

/-- An index of the result is in point t's block iff each coordinate is in the block's range on its axis. -/
theorem mem_blk (t : Fin cfg0.N) (i : S16384x3.Idx) :
    i ∈ ((cfg0.win 2).blk t).view.set ↔ ∀ a : Fin 2, win0_2.index t a * S128x3.size a ≤ (i a).val
      ∧ (i a).val < win0_2.index t a * S128x3.size a + S128x3.size a := by
  show i ∈ ((View.whole main_v1).slice (win0_2.rect t)).set ↔ _
  rw [View.set_slice_whole, Rect.mem_set_unit]
  exact Iff.rfl

/-- The 128 row blocks tile the result: row r lies in the block of point r / 128. -/
theorem covered (i : S16384x3.Idx) :
    ∃ t : Fin cfg0.N, (cfg0.win 2).flush t = true ∧ i ∈ ((cfg0.win 2).blk t).view.set := by
  have hi0 : (i 0).val < 16384 := (i 0).isLt
  have hi1 : (i 1).val < 3 := (i 1).isLt
  obtain ⟨t, ht⟩ := idx_onto ⟨(i 0).val / 128, by omega⟩
  have q0 : win0_2.index t (0 : Fin 2) = (i 0).val / 128 := congrFun ht 0
  have q1 : win0_2.index t (1 : Fin 2) = 0 := congrFun ht 1
  refine ⟨t, flush0_2 t, ?_⟩
  rw [mem_blk]
  intro a
  match a with
  | ⟨0, _⟩ =>
    show win0_2.index t (0 : Fin 2) * 128 ≤ (i 0).val ∧ (i 0).val < win0_2.index t (0 : Fin 2) * 128 + 128
    omega
  | ⟨1, _⟩ =>
    show win0_2.index t (1 : Fin 2) * 3 ≤ (i 1).val ∧ (i 1).val < win0_2.index t (1 : Fin 2) * 3 + 3
    omega

/-- After the run the region's result array is L · V. -/
theorem result_array (c : Dev nD) :
    (dats m 0 c).arrAt 2 cfg0.N
      = lapV (m ((c : Thread nD τ).loc main_arg1)) (m ((c : Thread nD τ).loc main_arg0)) :=
  (dats m 0 c).arrAt_eq_of_cover 2 _ (fun t _ => flushed_eq m c t) covered

end Cert.LaplacianLoss

end
-- ==== Proof.LossTail.lean ====
/-
  The masked squared-difference loss, as one function of the Laplacian coordinates.

  Both programs end the same way. A vertex index below zero is first moved up by the number of vertices, 16384 (an
  index counted from the end); the rows of the deformed Laplacian coordinates d and of the rest coordinates δ are
  gathered at the 8192 masked vertices; the two gathered arrays are subtracted, the difference is squared entry by
  entry, and all 8192 · 3 squares are summed from zero. The loss is therefore a function of d, δ and the mask alone,
  and two programs that feed it equal arrays get equal losses. Nothing below opens the gather or the sum.
-/
import proofs.«115199_j62929860821305_1_alg».proof.KernelIdeal
import proofs.«115199_j62929860821305_1_alg».proof.ReferenceIdeal
import Idealize.ShloMosaic.PureOps.Ideal

noncomputable section

namespace Cert.LaplacianLoss

open Idealize.ShloMosaic

variable [hK : Cert.KernelIdeal.Facts] [hR : Cert.ReferenceIdeal.Facts]

section
open Cert.ReferenceIdeal Cert.ReferenceIdeal.Facts₀

/-- The loss ∑ over the masked vertices v and the coordinates c of (d(v, c) − δ(v, c))², with the index normalisation
    and the gather as the reference states them. -/
def maskedLoss (d δ : (⟨S16384x3, .f32⟩ : BufTy).Contents (Elt Ideal)) (mask : (⟨S8192, .i32⟩ : BufTy).Contents (Elt Ideal)) :
    (⟨S_, .f32⟩ : BufTy).Contents (Elt Ideal) :=
  Host.reduceAdd (F := Ideal) (mulf (subf (Host.gather gather_S16384x3_S8192x1_S8192x3_1_0_n_n_0_1_13 d (broadcastInDim S8192x1 ![0] bcast_S8192_S8192x1_0 (select (cmpi .slt mask (broadcastInDim S8192 ![] bcast_S_S8192 (constantI S_ 32 0#32))) (addi mask (broadcastInDim S8192 ![] bcast_S_S8192 (constantI S_ 32 16384#32))) mask))) (Host.gather gather_S16384x3_S8192x1_S8192x3_1_0_n_n_0_1_13 δ (broadcastInDim S8192x1 ![0] bcast_S8192_S8192x1_0 (select (cmpi .slt mask (broadcastInDim S8192 ![] bcast_S_S8192 (constantI S_ 32 0#32))) (addi mask (broadcastInDim S8192 ![] bcast_S_S8192 (constantI S_ 32 16384#32))) mask)))) (subf (Host.gather gather_S16384x3_S8192x1_S8192x3_1_0_n_n_0_1_13 d (broadcastInDim S8192x1 ![0] bcast_S8192_S8192x1_0 (select (cmpi .slt mask (broadcastInDim S8192 ![] bcast_S_S8192 (constantI S_ 32 0#32))) (addi mask (broadcastInDim S8192 ![] bcast_S_S8192 (constantI S_ 32 16384#32))) mask))) (Host.gather gather_S16384x3_S8192x1_S8192x3_1_0_n_n_0_1_13 δ (broadcastInDim S8192x1 ![0] bcast_S8192_S8192x1_0 (select (cmpi .slt mask (broadcastInDim S8192 ![] bcast_S_S8192 (constantI S_ 32 0#32))) (addi mask (broadcastInDim S8192 ![] bcast_S_S8192 (constantI S_ 32 16384#32))) mask))))) (constant (F := Ideal) S_ .f32 0x00000000#32) reducesTo_S8192x3_S_d0_1 h_S_

end

section
open Cert.KernelIdeal Cert.KernelIdeal.Facts₀

/-- The kernel's program spells the same loss with its own copies of the shape facts and of the gather's dimension
    numbers; the two spellings are one function. -/
theorem maskedLoss_kernel_spelling (d δ : (⟨S16384x3, .f32⟩ : BufTy).Contents (Elt Ideal))
    (mask : (⟨S8192, .i32⟩ : BufTy).Contents (Elt Ideal)) :
    (Host.reduceAdd (F := Ideal) (mulf (subf (Host.gather gather_S16384x3_S8192x1_S8192x3_1_0_n_n_0_1_13 d (broadcastInDim S8192x1 ![0] bcast_S8192_S8192x1_0 (select (cmpi .slt mask (broadcastInDim S8192 ![] bcast_S_S8192 (constantI S_ 32 0#32))) (addi mask (broadcastInDim S8192 ![] bcast_S_S8192 (constantI S_ 32 16384#32))) mask))) (Host.gather gather_S16384x3_S8192x1_S8192x3_1_0_n_n_0_1_13 δ (broadcastInDim S8192x1 ![0] bcast_S8192_S8192x1_0 (select (cmpi .slt mask (broadcastInDim S8192 ![] bcast_S_S8192 (constantI S_ 32 0#32))) (addi mask (broadcastInDim S8192 ![] bcast_S_S8192 (constantI S_ 32 16384#32))) mask)))) (subf (Host.gather gather_S16384x3_S8192x1_S8192x3_1_0_n_n_0_1_13 d (broadcastInDim S8192x1 ![0] bcast_S8192_S8192x1_0 (select (cmpi .slt mask (broadcastInDim S8192 ![] bcast_S_S8192 (constantI S_ 32 0#32))) (addi mask (broadcastInDim S8192 ![] bcast_S_S8192 (constantI S_ 32 16384#32))) mask))) (Host.gather gather_S16384x3_S8192x1_S8192x3_1_0_n_n_0_1_13 δ (broadcastInDim S8192x1 ![0] bcast_S8192_S8192x1_0 (select (cmpi .slt mask (broadcastInDim S8192 ![] bcast_S_S8192 (constantI S_ 32 0#32))) (addi mask (broadcastInDim S8192 ![] bcast_S_S8192 (constantI S_ 32 16384#32))) mask))))) (constant (F := Ideal) S_ .f32 0x00000000#32) reducesTo_S8192x3_S_d0_1 h_S_
      : (⟨S_, .f32⟩ : BufTy).Contents (Elt Ideal))
      = maskedLoss d δ mask := rfl

end

end Cert.LaplacianLoss

end
-- ==== Proof.KernelLoss.lean ====
/-
  The kernel program's result, read as the masked loss of the product L · V.

  After the region the program runs the shared loss on three buffers: the region's result array, which is L · V; the
  rest coordinates δ and the mask, which neither the region nor any host line writes, so they are as launched. The
  host lines after the region compute the loss from whatever those three buffers hold: this is stated first for
  arbitrary contents, and then used at the contents the region leaves.
-/
import proofs.«115199_j62929860821305_1_alg».proof.Proof.Gen.KernelIdeal.Frame
import proofs.«115199_j62929860821305_1_alg».proof.Proof.Gen.ReferenceIdeal
import proofs.«115199_j62929860821305_1_alg».proof.Proof.LapArray
import proofs.«115199_j62929860821305_1_alg».proof.Proof.LossTail
import Idealize.ShloMosaic.Lib.Pipeline.Value
import Idealize.ShloMosaic.Lib.StableHlo.Run

set_option maxRecDepth 16384

noncomputable section

namespace Cert.LaplacianLoss

open Idealize.ShloMosaic Idealize.ShloMosaic.TcCoe Idealize.ShloMosaic.ValueIdx Idealize.SL.Sem
open Cert.KernelIdeal Cert.KernelIdeal.Gen

attribute [local irreducible] lapV

set_option maxHeartbeats 2000000 in
/-- The host lines after the region, from any contents `W₀` of the buffers with the region's arrays at any `A`: the
    program's result is the masked loss of the region's result array against the third argument at the fourth. -/
theorem tail_of_state (c : Dev nD) (W₀ : Valuation τ sig (Elt Ideal))
    (A : (w : Fin 3) → Buf (Elt Ideal) ((spec0 w).arr.view.loc (c.tc : Thread nD τ))) :
    StableHlo.after ([hostOps1] : List (List (HloOp τ sig (Elt Ideal)))).flatten (Pipeline.withArrays spec0 c W₀ A) (Proc.devRef .tc main_v18)
      = maskedLoss (Pipeline.withArrays spec0 c W₀ A (Proc.devRef .tc main_v1)) (Pipeline.withArrays spec0 c W₀ A (Proc.devRef .tc main_arg2))
          (Pipeline.withArrays spec0 c W₀ A (Proc.devRef .tc main_arg3)) := by
  show StableHlo.after hostOps1 (Pipeline.withArrays spec0 c W₀ A) (Proc.devRef .tc main_v18)
      = maskedLoss (Pipeline.withArrays spec0 c W₀ A (Proc.devRef .tc main_v1)) (Pipeline.withArrays spec0 c W₀ A (Proc.devRef .tc main_arg2))
          (Pipeline.withArrays spec0 c W₀ A (Proc.devRef .tc main_arg3))
  after_results
  exact maskedLoss_kernel_spelling _ _ _

variable (m : (ℓ : Loc nD τ sig) → Buf (Elt Ideal) ℓ)

/-- At the state the region leaves: the result array is L · V, the other two buffers are the arguments. -/
theorem tail_value (c : Dev nD) :
    Pipeline.afterTail₀ cfgs (dats m) 0 (V0 m) [hostOps1] c main_v18
      = maskedLoss (lapV (m ((c : Thread nD τ).loc main_arg1)) (m ((c : Thread nD τ).loc main_arg0)))
          (m ((c : Thread nD τ).loc main_arg2)) (m ((c : Thread nD τ).loc main_arg3)) := by
  have e1 : Pipeline.withArrays spec0 c (V0 m c) (fun w => (dats m 0 c).arrAt w cfg0.N) (Proc.devRef .tc main_v1)
      = lapV (m ((c : Thread nD τ).loc main_arg1)) (m ((c : Thread nD τ).loc main_arg0)) :=
    (Pipeline.withArrays_arr spec0 launch0.win.arr_inj c (V0 m c) _ 2).trans (result_array m c)
  have e2 : Pipeline.withArrays spec0 c (V0 m c) (fun w => (dats m 0 c).arrAt w cfg0.N) (Proc.devRef .tc main_arg2)
      = m ((c : Thread nD τ).loc main_arg2) :=
    (Pipeline.withArrays_of_ne spec0 c (V0 m c) _ main_arg2
      (by exact (by decide : ∀ w, Pipeline.arrRef spec0 w ≠ main_arg2))).trans (V_main_arg2 m c)
  have e3 : Pipeline.withArrays spec0 c (V0 m c) (fun w => (dats m 0 c).arrAt w cfg0.N) (Proc.devRef .tc main_arg3)
      = m ((c : Thread nD τ).loc main_arg3) :=
    (Pipeline.withArrays_of_ne spec0 c (V0 m c) _ main_arg3
      (by exact (by decide : ∀ w, Pipeline.arrRef spec0 w ≠ main_arg3))).trans (V_main_arg3 m c)
  unfold Pipeline.afterTail₀
  refine (tail_of_state c (V0 m c) (fun w => (dats m 0 c).arrAt w cfg0.N)).trans ?_
  rw [e1, e2, e3]

/-- Every weakly fair execution of the kernel's program ends with its result at the masked loss of L · V against δ,
    the arguments unchanged. -/
theorem kernel_run (ρ : Dev nD → PrngReg) :
    θ_run (defs (F := Ideal)) (onTc (τ := τ) (main (F := Ideal))) ⟨m, fun _ => 0, ρ⟩ fun r => ∀ c : Dev nD,
      r.2.mem ((c.tc : Thread nD τ).loc main_v18)
        = maskedLoss (lapV (m ((c.tc : Thread nD τ).loc main_arg1)) (m ((c.tc : Thread nD τ).loc main_arg0)))
            (m ((c.tc : Thread nD τ).loc main_arg2)) (m ((c.tc : Thread nD τ).loc main_arg3))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3) :=
  (θ_run defs _ _).mono (fun _ h c =>
    ⟨((h c).2 main_v18 (Pipeline.mem_restRefs_of main_v18 (by decide) (by decide))).trans (tail_value m c),
      ((h c).2 main_arg0 (Pipeline.mem_restRefs_of main_arg0 (by decide) (by decide))).trans (W_main_arg0 m (dats m) c),
      ((h c).1 0).trans (((dats m 0 c).arrAt_in 0 rfl _).trans ((A_eq m c 0).trans (V_main_arg1 m c))),
      ((h c).2 main_arg2 (Pipeline.mem_restRefs_of main_arg2 (by decide) (by decide))).trans (W_main_arg2 m (dats m) c),
      ((h c).2 main_arg3 (Pipeline.mem_restRefs_of main_arg3 (by decide) (by decide))).trans (W_main_arg3 m (dats m) c)⟩)
    (run_main m ρ)

end Cert.LaplacianLoss

end
-- ==== Proof.LibPlainDot.lean ====
import Idealize.ShloMosaic.PureOps.Ideal.Laws
import Idealize.ShloMosaic.Lib.ValueIdx
import Idealize.ShloMosaic.PureOps.Dims

/-!
  A plain matrix product: a left operand of shape [M, K] contracted on its axis 1 against a right operand of shape
  [K, N] contracted on its axis 0, with no batch axes, gives a result of shape [M, N] whose entry (p, q) is the sum
  over k < K of l(p, k) · r(k, q). The dimension record is a variable and its six lists are hypotheses, so the lemmas
  apply to every record of this shape.
-/

open scoped BigOperators

namespace Cert.Lib.PlainDot

open Idealize.ShloMosaic Idealize.ShloMosaic.ValueIdx

variable {M K N : Nat} (d : DotDims ⟨2, ![M, K]⟩ ⟨2, ![K, N]⟩ ⟨2, ![M, N]⟩)

/-- With one contracting axis the contraction shape has rank one. -/
theorem rank_contr_eq_one (hlc : d.lhsContracting = [1]) : d.contr.rank = 1 := by
  rw [d.rank_contr, hlc]; rfl

/-- The one axis of the contraction shape has the extent K of the left operand's axis 1. -/
theorem size_contr_eq (hlc : d.lhsContracting = [1]) :
    d.contr.size ⟨0, by rw [rank_contr_eq_one d hlc]; exact Nat.one_pos⟩ = K := by
  have h0 : 0 < d.lhsContracting.length := by rw [hlc]; exact Nat.one_pos
  rw [d.size_contr 0 h0]
  have h1 : d.lhsContracting[0] = 1 := by simp [hlc]
  rw [h1]; rfl

/-- The left operand's index reads, on its non-contracting axis 0, the result index's row. -/
theorem lhsIdx_zero_val (hln : d.lhsNonContracting = [0]) (hlb : d.lhsBatch = [])
    (j : (⟨2, ![M, N]⟩ : Shape).Idx) (k : d.contr.Idx) : (d.lhsIdx j k 0).val = (j 0).val := by
  have hb : (0 : Fin (⟨2, ![M, K]⟩ : Shape).rank) ∉ d.lhsBatch := by rw [hlb]; exact List.not_mem_nil
  have hn : (0 : Fin (⟨2, ![M, K]⟩ : Shape).rank) ∈ d.lhsNonContracting := by rw [hln]; exact List.mem_singleton.mpr rfl
  unfold DotDims.lhsIdx
  rw [dif_neg hb, dif_pos hn]
  simp only [Fin.val_cast]
  have key : ∀ (n : Nat) (h : n < (⟨2, ![M, N]⟩ : Shape).rank), n = 0 → (j ⟨n, h⟩).val = (j 0).val :=
    fun n h e => by subst e; rfl
  exact key _ _ (by simp [hlb, hln])

/-- The right operand's index reads, on its non-contracting axis 1, the result index's column. -/
theorem rhsIdx_one_val (hln : d.lhsNonContracting = [0]) (hrn : d.rhsNonContracting = [1])
    (hlb : d.lhsBatch = []) (hrb : d.rhsBatch = [])
    (j : (⟨2, ![M, N]⟩ : Shape).Idx) (k : d.contr.Idx) : (d.rhsIdx j k 1).val = (j 1).val := by
  have hb : (1 : Fin (⟨2, ![K, N]⟩ : Shape).rank) ∉ d.rhsBatch := by rw [hrb]; exact List.not_mem_nil
  have hn : (1 : Fin (⟨2, ![K, N]⟩ : Shape).rank) ∈ d.rhsNonContracting := by rw [hrn]; exact List.mem_singleton.mpr rfl
  unfold DotDims.rhsIdx
  rw [dif_neg hb, dif_pos hn]
  simp only [Fin.val_cast]
  have key : ∀ (n : Nat) (h : n < (⟨2, ![M, N]⟩ : Shape).rank), n = 1 → (j ⟨n, h⟩).val = (j 1).val :=
    fun n h e => by subst e; rfl
  exact key _ _ (by simp [hlb, hln, hrn])

/-- The contraction sum of a plain matrix product at entry (p, q), re-indexed by the one contraction coordinate, is the
    sum over k < K of l(p, k) · r(k, q). -/
theorem sum_eq (hlc : d.lhsContracting = [1]) (hrc : d.rhsContracting = [0])
    (hln : d.lhsNonContracting = [0]) (hrn : d.rhsNonContracting = [1])
    (hlb : d.lhsBatch = []) (hrb : d.rhsBatch = [])
    (l : (⟨2, ![M, K]⟩ : Shape).Idx → EReal) (r : (⟨2, ![K, N]⟩ : Shape).Idx → EReal) (p : Fin M) (q : Fin N) :
    (∑ k : d.contr.Idx, l (d.lhsIdx (ix2 p q) k) * r (d.rhsIdx (ix2 p q) k)) = ∑ k : Fin K, l (ix2 p k) * r (ix2 k q) := by
  have hr : d.contr.rank = 1 := rank_contr_eq_one d hlc
  have hs : d.contr.size ⟨0, by omega⟩ = K := size_contr_eq d hlc
  refine (Equiv.sum_comp (contrEquiv1 d K hr hs).symm
    (fun k => l (d.lhsIdx (ix2 p q) k) * r (d.rhsIdx (ix2 p q) k))).symm.trans ?_
  refine Finset.sum_congr rfl fun i _ => ?_
  have hL : d.lhsIdx (ix2 p q) ((contrEquiv1 d K hr hs).symm i) = ix2 p i := by
    funext a
    match a with
    | ⟨0, _⟩ => exact Fin.ext (lhsIdx_zero_val d hln hlb _ _)
    | ⟨1, _⟩ => exact Fin.ext ((d.lhsIdx_val_of_single hlc _ _).trans (contrEquiv1_symm_val d K hr hs i))
  have hR : d.rhsIdx (ix2 p q) ((contrEquiv1 d K hr hs).symm i) = ix2 i q := by
    funext a
    match a with
    | ⟨0, _⟩ => exact Fin.ext ((d.rhsIdx_val_of_single hrc _ _).trans (contrEquiv1_symm_val d K hr hs i))
    | ⟨1, _⟩ => exact Fin.ext (rhsIdx_one_val d hln hrn hlb hrb _ _)
  show l _ * r _ = _
  rw [hL, hR]

/-- A plain matrix product accumulated into the zero splat, read at entry (p, q) at the ideal values, is the sum over
    k < K of l(p, k) · r(k, q). -/
theorem matmul_zero_apply {φ₁ φ₂ : FTy} (hlc : d.lhsContracting = [1]) (hrc : d.rhsContracting = [0])
    (hln : d.lhsNonContracting = [0]) (hrn : d.rhsNonContracting = [1])
    (hlb : d.lhsBatch = []) (hrb : d.rhsBatch = []) (prec : Option ContractPrecision)
    (l : FVec Ideal ⟨2, ![M, K]⟩ φ₁) (r : FVec Ideal ⟨2, ![K, N]⟩ φ₂) (p : Fin M) (q : Fin N) :
    FloatOps.matmul d prec l r (constant (F := Ideal) ⟨2, ![M, N]⟩ .f32 0x00000000#32) (ix2 p q)
      = ∑ k : Fin K, l (ix2 p k) * r (ix2 k q) :=
  (Ideal.matmul_constant_zero_apply d prec l r (ix2 p q)).trans (sum_eq d hlc hrc hln hrn hlb hrb l r p q)

/-- The host's plain matrix product, read at entry (p, q) at the ideal values, is the sum over k < K of
    l(p, k) · r(k, q), whatever the schedule. -/
theorem dotGeneral_apply {φ₁ φ₂ : FTy} (hlc : d.lhsContracting = [1]) (hrc : d.rhsContracting = [0])
    (hln : d.lhsNonContracting = [0]) (hrn : d.rhsNonContracting = [1])
    (hlb : d.lhsBatch = []) (hrb : d.rhsBatch = []) (prec : Option ContractPrecision) (sched : HostSchedule)
    (l : FVec Ideal ⟨2, ![M, K]⟩ φ₁) (r : FVec Ideal ⟨2, ![K, N]⟩ φ₂) (p : Fin M) (q : Fin N) :
    FloatOps.dotGeneral d prec sched l r (ix2 p q) = ∑ k : Fin K, l (ix2 p k) * r (ix2 k q) :=
  (Ideal.dotGeneral_apply d prec sched l r (ix2 p q)).trans (sum_eq d hlc hrc hln hrn hlb hrb l r p q)

end Cert.Lib.PlainDot
-- ==== Proof.ReferenceLoss.lean ====
/-
  The reference program's result, read as the masked loss of the product L · V.

  The reference first forms L · V by one matrix product (L of shape [16384, 16384] contracted on its axis 1 against V
  of shape [16384, 3] contracted on its axis 0, no batch axes), which at the ideal values is, entry by entry, the sum
  ∑ k, L(i, k) · V(k, c) of the specification. Everything after that is the shared masked loss.
-/
import proofs.«115199_j62929860821305_1_alg».proof.Proof.Gen.ReferenceIdeal.Run
import proofs.«115199_j62929860821305_1_alg».proof.Proof.LibPlainDot
import proofs.«115199_j62929860821305_1_alg».proof.Proof.MatVecSpec
import proofs.«115199_j62929860821305_1_alg».proof.Proof.LossTail

noncomputable section

namespace Cert.LaplacianLoss

open Idealize.ShloMosaic Idealize.ShloMosaic.TcCoe Idealize.ShloMosaic.ValueIdx Idealize.SL.Sem

open Cert.ReferenceIdeal in
/-- The reference's matrix product is the specification's L · V. -/
theorem dotGeneral_eq_lapV (L : FVec Ideal S16384x16384 .f32) (V : FVec Ideal S16384x3 .f32) :
    Host.dotGeneral (F := Ideal) dot_S16384x16384_S16384x3_S16384x3_1_0_0_1_n_n none L V = lapV L V := by
  funext i
  obtain ⟨p, q, rfl⟩ : ∃ (p : Fin 16384) (q : Fin 3), i = ix2 p q := ⟨i 0, i 1, eq_ix2 i⟩
  exact Cert.Lib.PlainDot.dotGeneral_apply dot_S16384x16384_S16384x3_S16384x3_1_0_0_1_n_n rfl rfl rfl rfl rfl rfl
    none .single L V p q

open Cert.ReferenceIdeal Cert.ReferenceIdeal.Gen in
/-- Every weakly fair execution of the reference ends with its result at the masked loss of L · V against δ, the
    arguments unchanged. -/
theorem reference_run (m : (ℓ : Loc nD τ sig) → Buf (Elt Ideal) ℓ) (ρ : Dev nD → PrngReg) :
    θ_run (defs (F := Ideal)) (onTc (τ := τ) (main (F := Ideal))) ⟨m, fun _ => 0, ρ⟩ fun r => ∀ c : Dev nD,
      r.2.mem ((c.tc : Thread nD τ).loc main_v17)
        = maskedLoss (lapV (m ((c.tc : Thread nD τ).loc main_arg1)) (m ((c.tc : Thread nD τ).loc main_arg0)))
            (m ((c.tc : Thread nD τ).loc main_arg2)) (m ((c.tc : Thread nD τ).loc main_arg3))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3) :=
  (θ_run defs _ _).mono (fun _ h c => ⟨(h c).1.trans
      (congrArg (fun d => maskedLoss d (m ((c.tc : Thread nD τ).loc main_arg2)) (m ((c.tc : Thread nD τ).loc main_arg3)))
        (dotGeneral_eq_lapV (m ((c.tc : Thread nD τ).loc main_arg1)) (m ((c.tc : Thread nD τ).loc main_arg0)))),
      (h c).2⟩)
    (Cert.ReferenceIdeal.Value.run (F := Ideal) m ρ)

end Cert.LaplacianLoss

end
-- ==== Proof.lean ====
/-
  The masked Laplacian loss: a hand-tiled kernel against the plain matrix product.

  Both programs compute ∑ over the masked vertices v and the coordinates c of ((L · V)(v, c) − δ(v, c))². The
  reference forms L · V by one matrix product. The kernel walks L in 128 blocks of 128 rows; for each block and each of
  the three coordinates it multiplies the block, lane by lane, with the matching row of the transposed positions and
  sums over the lanes, so entry (i, c) of its result is ∑ k, L(i, k) · V(k, c) as well: the same sum of the same
  products, which on the extended reals needs no finiteness to compare (no term is moved across a product or
  cancelled). The masked loss that follows is the same function in both programs, applied to equal arrays.

  The three frames: the two kernel programs' are the generated frame certificates; the reference's is its run with
  the result dropped. The idealization rewrote nothing, so there is nothing to preserve.
-/
import proofs.«115199_j62929860821305_1_alg».proof.Defs
import proofs.«115199_j62929860821305_1_alg».proof.Proof.Gen.Kernel
import proofs.«115199_j62929860821305_1_alg».proof.Proof.Gen.Kernel.Skeleton
import proofs.«115199_j62929860821305_1_alg».proof.Proof.Gen.Kernel.Launch
import proofs.«115199_j62929860821305_1_alg».proof.Proof.Gen.Kernel.Points
import proofs.«115199_j62929860821305_1_alg».proof.Proof.Gen.Kernel.Frame
import proofs.«115199_j62929860821305_1_alg».proof.Proof.Gen.KernelIdeal
import proofs.«115199_j62929860821305_1_alg».proof.Proof.Gen.KernelIdeal.Skeleton
import proofs.«115199_j62929860821305_1_alg».proof.Proof.Gen.KernelIdeal.Launch
import proofs.«115199_j62929860821305_1_alg».proof.Proof.Gen.KernelIdeal.Points
import proofs.«115199_j62929860821305_1_alg».proof.Proof.Gen.KernelIdeal.Frame
import proofs.«115199_j62929860821305_1_alg».proof.Proof.Gen.ReferenceIdeal
import proofs.«115199_j62929860821305_1_alg».proof.Proof.Gen.ReferenceIdeal.Run
import proofs.«115199_j62929860821305_1_alg».proof.Proof.Gen.Pre_finite_inputs
import proofs.«115199_j62929860821305_1_alg».proof.Proof.KernelLoss
import proofs.«115199_j62929860821305_1_alg».proof.Proof.ReferenceLoss
import Idealize.ShloMosaic.Adequacy
import Idealize.ShloMosaic.Init

noncomputable section

namespace Cert.Proof

open Idealize.ShloMosaic Idealize.ShloMosaic.TcCoe Idealize.SL.Sem

/-- The word-level kernel program runs and keeps its arguments. -/
theorem frame_kernel : Cert.frame_Kernel := fun m ρ _ => Cert.Kernel.Gen.frame m ρ

/-- So does the idealized kernel program. -/
theorem frame_kernelIdeal : Cert.frame_KernelIdeal := fun m ρ _ => Cert.KernelIdeal.Gen.frame m ρ

/-- The reference runs and keeps its arguments: its run, the result forgotten. -/
theorem frame_referenceIdeal : Cert.frame_ReferenceIdeal := fun m ρ _ =>
  (θ_run Cert.ReferenceIdeal.defs _ _).mono (fun _ h c => (h c).2) (Cert.ReferenceIdeal.Value.run (F := Ideal) m ρ)

/-- Both programs end with the masked loss of L · V against δ, of arguments that agree. -/
theorem algebraic : Cert.algebraic_KernelIdeal_ReferenceIdeal := by
  intro m ρ m' ρ' _ hagree
  refine ⟨fun c => Cert.LaplacianLoss.maskedLoss
      (Cert.LaplacianLoss.lapV (m ((c.tc : Thread Cert.KernelIdeal.nD Cert.KernelIdeal.τ).loc Cert.KernelIdeal.main_arg1))
        (m ((c.tc : Thread Cert.KernelIdeal.nD Cert.KernelIdeal.τ).loc Cert.KernelIdeal.main_arg0)))
      (m ((c.tc : Thread Cert.KernelIdeal.nD Cert.KernelIdeal.τ).loc Cert.KernelIdeal.main_arg2))
      (m ((c.tc : Thread Cert.KernelIdeal.nD Cert.KernelIdeal.τ).loc Cert.KernelIdeal.main_arg3)),
    Cert.LaplacianLoss.kernel_run m ρ, ?_⟩
  refine (θ_run Cert.ReferenceIdeal.defs _ _).mono (fun _ h c => ⟨(h c).1.trans ?_, (h c).2⟩)
    (Cert.LaplacianLoss.reference_run m' ρ')
  rw [(hagree c).1, (hagree c).2.1, (hagree c).2.2.1, (hagree c).2.2.2]

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, trivial, algebraic⟩

end Cert.Proof

end
